-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384x64 : Shape := ⟨2, ![16384, 64]⟩
abbrev S3 : Shape := ⟨1, ![3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x3 .f32) (main_arg1 : FVec F S16384x64 .f32) (main_arg2 : IVec S3 32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x3 : Shape := ⟨2, ![16384, 3]⟩
abbrev S16384x64 : Shape := ⟨2, ![16384, 64]⟩
abbrev S3 : Shape := ⟨1, ![3]⟩
abbrev S2x8192x3 : Shape := ⟨3, ![2, 8192, 3]⟩
abbrev S2x8192x64 : Shape := ⟨3, ![2, 8192, 64]⟩
abbrev S2x8192x8192 : Shape := ⟨3, ![2, 8192, 8192]⟩
abbrev S1x1024x3 : Shape := ⟨3, ![1, 1024, 3]⟩
abbrev S1x1024x1024 : Shape := ⟨3, ![1, 1024, 1024]⟩
abbrev S1024x3 : Shape := ⟨2, ![1024, 3]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384x64, .f32⟩
  | .hbm, ⟨2, _⟩ => ⟨S3, .i32⟩
  | .hbm, ⟨3, _⟩ => ⟨S2x8192x3, .f32⟩
  | .hbm, ⟨4, _⟩ => ⟨S2x8192x64, .f32⟩
  | .hbm, ⟨5, _⟩ => ⟨S2x8192x8192, .f32⟩
  | .hbm, ⟨6, _⟩ => ⟨S2x8192x8192, .i32⟩
  | .hbm, ⟨7, _⟩ => ⟨S_, .i32⟩
  | .hbm, ⟨8, _⟩ => ⟨S2x8192x8192, .i32⟩
  | .hbm, ⟨9, _⟩ => ⟨S2x8192x8192, .i1⟩
  | .hbm, ⟨10, _⟩ => ⟨S2x8192x8192, .i1⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .i32⟩
  | .local _ .vmem, ⟨7, _⟩ => ⟨S1x1024x1024, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S16384x3_S2x8192x3 : S16384x3.ShapeCasts S2x8192x3
  shapeCasts_S16384x64_S2x8192x64 : S16384x64.ShapeCasts S2x8192x64
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024x1_S1x1024 : S1024x1.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  natLt_1_32 : 1 < 32
  bcast_S_S2x8192x8192 : S_.BroadcastsInDim S2x8192x8192 (![] : Fin 0 → Fin S2x8192x8192.rank)
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x8192x3.size a
  hwx0_0 : ∀ i : grid0.Coords, EltTy.bits .f32 = 32 ∨ (Rect.block (s := S2x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x8192x3.size a
  hwx0_1 : ∀ i : grid0.Coords, EltTy.bits .f32 = 32 ∨ (Rect.block (s := S2x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x8192x8192.size a
  hwx0_2 : ∀ i : grid0.Coords, EltTy.bits .f32 = 32 ∨ (Rect.block (s := S2x8192x8192) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x8192x8192.size a
  hwx0_3 : ∀ i : grid0.Coords, EltTy.bits .i32 = 32 ∨ (Rect.block (s := S2x8192x8192) S1x1024x1024.size (cc0_transform_3 i) (hinb0_3 i)).WholeWords (EltTy.packing .i32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_v0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S16384x64 : Shape := ⟨2, ![16384, 64]⟩
abbrev S3 : Shape := ⟨1, ![3]⟩
abbrev S2x8192x3 : Shape := ⟨3, ![2, 8192, 3]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S2x1x8192 : Shape := ⟨3, ![2, 1, 8192]⟩
abbrev S2x8192x8192 : Shape := ⟨3, ![2, 8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x64, .f32⟩
  | .hbm, ⟨2, _⟩ => ⟨S3, .i32⟩
  | .hbm, ⟨3, _⟩ => ⟨S2x8192x3, .f32⟩
  | .hbm, ⟨4, _⟩ => ⟨S2x8192x64, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S2x1x8192, .f32⟩
  | .hbm, ⟨10, _⟩ => ⟨S2x8192x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .i1⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  shapeCasts_S16384x3_S2x8192x3 : S16384x3.ShapeCasts S2x8192x3
  shapeCasts_S16384x64_S2x8192x64 : S16384x64.ShapeCasts S2x8192x64
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.WordRegion.lean ====
/-
  The kernel region run by hand, at any float instance.

  One pallas_call over a 2 × 8 × 8 grid. At grid point (b, i, j) the body reads two blocks of 1024 points of
  cloud b — rows 1024·i … of the points array for the output tile's rows, rows 1024·j … for its columns; BOTH
  blocks are windows onto ONE array, the reshaped points — and writes one 1024 × 1024 tile of each of two
  result arrays. Because two input windows share an array, the array's points-to is dealt between them in two
  half shares at the region's entry and the halves are read back together at its exit; nothing else in the launch
  differs from a kernel with distinct arrays. Before the region @main reshapes its two float arguments; after
  it, four host operations turn the 32-bit mask the kernel wrote into the one-bit result.
-/
import proofs.«403998_j3487513444654_3_alg».proof.Proof.Gen.Kernel.Launch
import proofs.«403998_j3487513444654_3_alg».proof.Proof.Gen.Kernel.Skeleton
import proofs.«403998_j3487513444654_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, and the four later lines: it reduces to the region continued by those
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No line before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the row window is
    fetched only when the row tile changes: until then its block index has not moved), for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

/-- The whole point block, as the body's two loads read it, and the whole tile, as its two stores write it. -/
abbrev rPts : Rect S1x1024x3 := Rect.unit (s := S1x1024x3) ![0, 0, 0] S1x1024x3.size inb_S1x1024x3_S1x1024x3_0_0_0
abbrev rTile : Rect S1x1024x1024 := Rect.unit (s := S1x1024x1024) ![0, 0, 0] S1x1024x1024.size inb_S1x1024x1024_S1x1024x1024_0_0_0

/-- The distance tile after the body: its one store, of the distances of the row block `x0` and the column block `x1`. -/
def out0_2 (x0 x1 : Vec F S1x1024x3 .f32) : Vec F S1x1024x1024 .f32 :=
  View.canon [⟨rTile, k0_pay2 (View.ld x0 rPts) (View.ld x1 rPts)⟩]
/-- The mask tile after the body: its one store, of the widened comparison bits. -/
def out0_3 (x0 x1 : Vec F S1x1024x3 .f32) : Vec F S1x1024x1024 .i32 :=
  View.canon [⟨rTile, k0_pay3 (View.ld x0 rPts) (View.ld x1 rPts)⟩]

/-- Each store covers its buffer. -/
theorem cover_f32 (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y
theorem cover_i32 (p0 : Vec F S1x1024x1024 .i32) (y : S1x1024x1024.Idx) :
    ∃ pc ∈ ([⟨rTile, p0⟩] : List (View.Piece (Elt F) S1x1024x1024 .i32)), y ∈ pc.1.set :=
  View.cover_of_tiled [⟨rTile, p0⟩] S1x1024x1024.size (by rfl) y

/-! ## The body's triple -/

set_option maxHeartbeats 1000000 in
/-- The body on whole staging memrefs — the two inputs' at read contents `x0`, `x1`, the two outputs' at anything —
    runs to the continuation holding the inputs' as they were and the outputs' at `out0_2`, `out0_3` of the inputs'. -/
theorem sound_kernel (c : Dev nD) (E : Set ℕ) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x1024x1024 .f32) (harg5 : arg5.IsWhole) (arg6 : Memref sig .tc .vmem S1x1024x1024 .i32) (harg6 : arg6.IsWhole)
    (x0 x1 : Vec F S1x1024x3 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
              ∗ owns (c : Thread nD τ) arg5 fullShare (out0_2 x0 x1) ∗ owns (c : Thread nD τ) arg6 fullShare (out0_3 x0 x1)) -∗ K ⟨⟩))
      ⊢ wp frame (wpE (defs₀ (F := F)) Variants.none c none) E (cc0__knn_kernel i arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_f32 _)
  iexists _; isplitr
  swap; · iexact H3
  ipureintro
  exact View.read_writes_eq_canon _ _ _ (cover_i32 _)

/-! ## The pipeline's proof data -/

/-- The proof data on core `c`: the arrays as the region finds them; after the body at point `t` each input's buffer
    still at its block and each output's at what the stores left; no invariant of its own (it has no scratch and
    draws no random bits); nothing owed. The points array is read through two windows: the row window holds its
    left half share, the column window its right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Region

end
-- ==== Proof.WordRegionRun.lean ====
/-
  The launch of the kernel region and the run of @main, at any float instance.
-/
import proofs.«403998_j3487513444654_3_alg».proof.Proof.WordRegion

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at their shares -/

/-- The four windows' arrays one by one: the points array twice, at its left and right half shares, and the two
    result arrays outright. -/
theorem arrays_open (c : Dev nD) (Fw : (w : Fin cfg0.W) → Buf (Elt F) ((cfg0.win w).arr.view.loc (c.tc : Thread nD τ))) :
    ((dats m 0 c).arrays Fw : sProp 𝕄)
      = iprop((((c.tc : Thread nD τ).loc main_v0) ↦{fullShare.left} Fw 0) ∗ (((c.tc : Thread nD τ).loc main_v0) ↦{fullShare.right} Fw 1)
          ∗ (((c.tc : Thread nD τ).loc main_v2_0) ↦{fullShare} Fw 2) ∗ (((c.tc : Thread nD τ).loc main_v2_1) ↦{fullShare} Fw 3)) := by
  unfold Dat.arrays
  rw [bigSep_congr (fun w _ => show (((cfg0.win w).arr.view.loc (c.tc : Thread nD τ)) ↦[(cfg0.win w).arr.view.set]{(dats m 0 c).share w} Fw w : sProp 𝕄)
        = (((cfg0.win w).arr.view.loc (c.tc : Thread nD τ)) ↦{(dats m 0 c).share w} Fw w) from by rw [(arr_whole0 w).set_eq_univ]), bigSep_W0]
  rfl

/-- ENTRY: the three buffers behind the windows' arrays, whole, make the pipeline's arrays — the points array's full
    share split into its two halves, one per window onto it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_open]
  unfold Pipeline.arrBufs
  rw [bigSep_eq_bigSepL_of_eq [main_v0, main_v2_0, main_v2_1] (by decide) (by decide)]
  show iprop((((c.tc : Thread nD τ).loc main_v0) ↦{fullShare} V m c main_v0) ∗ (((c.tc : Thread nD τ).loc main_v2_0) ↦{fullShare} V m c main_v2_0)
      ∗ (((c.tc : Thread nD τ).loc main_v2_1) ↦{fullShare} V m c main_v2_1)) ⊢ _
  iintro ⟨H0, H2, H3⟩
  ihave Hs := (pointsTo_share (PosShare.mem_left_op_right fullShare)).1 $$ H0
  icases Hs with ⟨Hl, Hr⟩
  isplitl [Hl]; · iexact Hl
  isplitl [Hr]; · iexact Hr
  isplitl [H2]; · iexact H2
  iexact H3

/-! ## The lines after the region -/

/-- The buffers' contents when the region is left, for any final contents `Fw` of the windows' arrays: each window's
    array at `Fw`, every other buffer as the region found it. -/
abbrev Wx (c : Dev nD) (Fw : (w : Fin cfg0.W) → Buf (Elt F) ((cfg0.win w).arr.view.loc (c.tc : Thread nD τ))) : Valuation τ sig (Elt F) :=
  Pipeline.withArrays spec0 c (V0 m c) Fw

/-- The only window onto array `arrRef spec0 w₀` being `w₀` itself (`huniq`), the exit contents there are `Fw w₀`. -/
theorem Wx_at (c : Dev nD) (Fw : (w : Fin cfg0.W) → Buf (Elt F) ((cfg0.win w).arr.view.loc (c.tc : Thread nD τ))) (w₀ : Fin 4)
    (huniq : ∀ w' : Fin 4, Pipeline.arrRef spec0 w' = Pipeline.arrRef spec0 w₀ → w' = w₀) :
    Wx m c Fw (Proc.devRef .tc (Pipeline.arrRef spec0 w₀)) = Fw w₀ := by
  show Pipeline.withArrays spec0 c (V0 m c) Fw (Proc.devRef .tc (Pipeline.arrRef spec0 w₀)) = _
  unfold Pipeline.withArrays
  have h : ∃ w', Proc.devRef .tc (Pipeline.arrRef spec0 w') = Proc.devRef (τ := τ) .tc (Pipeline.arrRef spec0 w₀) := ⟨w₀, rfl⟩
  rw [dif_pos h]
  suffices ∀ (w' : Fin 4) (e : Proc.devRef .tc (Pipeline.arrRef spec0 w') = Proc.devRef (τ := τ) .tc (Pipeline.arrRef spec0 w₀)),
      cast (congrArg (fun b' : DevRef τ sig => b'.ty.Contents (Elt F)) e) (Fw w') = Fw w₀ from this _ h.choose_spec
  intro w' e
  obtain rfl : w' = w₀ := huniq w' (Proc.devRef_injective (τ := τ) _ e)
  rfl

theorem uniq_mask : ∀ w' : Fin 4, Pipeline.arrRef spec0 w' = Pipeline.arrRef spec0 3 → w' = 3 := by decide
theorem uniq_dist : ∀ w' : Fin 4, Pipeline.arrRef spec0 w' = Pipeline.arrRef spec0 2 → w' = 2 := by decide

theorem Wx_mask (c : Dev nD) (Fw : (w : Fin cfg0.W) → Buf (Elt F) ((cfg0.win w).arr.view.loc (c.tc : Thread nD τ))) :
    Wx m c Fw (Proc.devRef .tc main_v2_1) = Fw 3 := Wx_at m c Fw 3 uniq_mask
theorem Wx_dist (c : Dev nD) (Fw : (w : Fin cfg0.W) → Buf (Elt F) ((cfg0.win w).arr.view.loc (c.tc : Thread nD τ))) :
    Wx m c Fw (Proc.devRef .tc main_v2_0) = Fw 2 := Wx_at m c Fw 2 uniq_dist

/-- The buffers the later lines run within: the mask array, which they read, and the buffers that bypass the region,
    some of which they write. (Not the points array, whose two half shares stay with the pipeline's arrays.) -/
def tailSet : Finset (DevRef τ sig) :=
  (insert main_v2_1 (Pipeline.restRefs sig spec0)).map ⟨Proc.devRef (sig := sig) .tc, Proc.devRef_injective _⟩

theorem mask_not_rest : main_v2_1 ∉ Pipeline.restRefs sig spec0 := fun h =>
  (Finset.mem_sdiff.mp h).2 (Finset.mem_image.mpr ⟨3, Finset.mem_univ _, rfl⟩)

/-- Held at a valuation, that set is the mask array and the bypassing buffers at it. -/
theorem held_tailSet (c : Dev nD) (Wv : Valuation τ sig (Elt F)) :
    (StableHlo.held (c.tc : Thread nD τ) tailSet Wv : sProp 𝕄)
      = iprop((((c.tc : Thread nD τ).loc main_v2_1) ↦{fullShare} Wv (Proc.devRef .tc main_v2_1))
          ∗ Pipeline.unscopedRest spec0 c (fun b => Wv (Proc.devRef .tc b))) := by
  classical
  unfold StableHlo.held tailSet Pipeline.unscopedRest
  rw [bigSep_map, bigSep_insert mask_not_rest]
  rfl

theorem mem_tailSet_rest (b : Ref sig .tc) (hs : b.isScoped = false) (ha : ∀ w, (spec0 w).arr.view.ref ≠ b) :
    Proc.devRef (τ := τ) .tc b ∈ tailSet :=
  Finset.mem_map_of_mem _ (Finset.mem_insert_of_mem (Pipeline.mem_restRefs_of b hs ha))
theorem mem_tailSet_mask : Proc.devRef (τ := τ) .tc main_v2_1 ∈ tailSet :=
  Finset.mem_map_of_mem _ (Finset.mem_insert_self _ _)

/-- Each later line touches only buffers of that set: the zero constant, its broadcast, the comparison of the mask
    array against it, and the conversion of the comparison's result. -/
theorem tail_sub : ∀ ops ∈ ([hostOps1] : List (List (HloOp τ sig (Elt F)))), ∀ op ∈ ops, op.bufs ⊆ tailSet := by
  intro ops hops op hop
  obtain rfl := List.mem_singleton.mp hops
  simp only [hostOps1, List.mem_cons, List.mem_nil_iff, _root_.or_false] at hop
  rcases hop with rfl | rfl | rfl | rfl
  · rw [StableHlo.nullary_bufs]; intro b hb
    rw [Finset.mem_singleton] at hb; subst hb
    exact mem_tailSet_rest main_c (by decide) (by decide)
  · rw [StableHlo.unary_bufs]; intro b hb
    simp only [Finset.mem_insert, Finset.mem_singleton] at hb
    rcases hb with rfl | rfl
    · exact mem_tailSet_rest main_c (by decide) (by decide)
    · exact mem_tailSet_rest main_v3 (by decide) (by decide)
  · rw [StableHlo.binary_bufs]; intro b hb
    simp only [Finset.mem_insert, Finset.mem_singleton] at hb
    rcases hb with rfl | rfl | rfl
    · exact mem_tailSet_mask
    · exact mem_tailSet_rest main_v3 (by decide) (by decide)
    · exact mem_tailSet_rest main_v4 (by decide) (by decide)
  · rw [StableHlo.unary_bufs]; intro b hb
    simp only [Finset.mem_insert, Finset.mem_singleton] at hb
    rcases hb with rfl | rfl
    · exact mem_tailSet_rest main_v4 (by decide) (by decide)
    · exact mem_tailSet_rest main_v5 (by decide) (by decide)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- No later line writes the mask array. -/
theorem tail_keeps_mask : ∀ op ∈ (hostOps1 : List (HloOp τ sig (Elt F))), Proc.devRef .tc main_v2_1 ∉ op.writes := by
  intro op hop
  simp only [hostOps1, List.mem_cons, List.mem_nil_iff, _root_.or_false] at hop
  rcases hop with rfl | rfl | rfl | rfl <;>
    simp only [StableHlo.nullary_writes, StableHlo.unary_writes, StableHlo.binary_writes, Finset.mem_singleton] <;>
    exact StableHlo.devRef_ne_of_ne (by decide)

/-- THE LINES AFTER THE REGION, for any final contents `Fw` of the arrays: from the region's exit — the boundary, the
    arrays at `Fw`, the bypassing buffers as the region found them — the four lines run within the mask array and the
    bypassing buffers, and hand back the arrays unchanged and the bypassing buffers at what the lines computed from the
    exit contents. -/
theorem htail_any (c : Dev nD) (Fw : (w : Fin cfg0.W) → Buf (Elt F) ((cfg0.win w).arr.view.loc (c.tc : Thread nD τ))) (Q' : PUnit → sProp 𝕄) :
    iprop((iprop((dats m 0 c).arrays Fw
              ∗ Pipeline.unscopedRest spec0 c (fun b => StableHlo.after ([hostOps1] : List (List (HloOp τ sig (Elt F)))).flatten (Wx m c Fw) (Proc.devRef .tc b))) -∗ Q' ⟨⟩)
        ∗ boundary (c.tc : Thread nD τ) ∗ (dats m 0 c).arrays Fw
        ∗ Pipeline.unscopedRest spec0 c (V m c))
      ⊢ wp frame (wpE (Pipeline.defs (fun q => (cfgs q).toPCfg (Val := Elt F)) defs₀) (Variants.lift Variants.none) (c.tc : Thread nD τ) none)
          Set.univ (Pipeline.chain (([hostOps1] : List (List (HloOp τ sig (Elt F)))).map StableHlo.seq)) Q' := by
  classical
  have hrest : (Pipeline.unscopedRest spec0 c (fun b => Wx m c Fw (Proc.devRef .tc b)) : sProp 𝕄) = Pipeline.unscopedRest spec0 c (V m c) := by
    unfold Pipeline.unscopedRest
    exact bigSep_congr fun b hb => by
      show ((((c.tc : Thread nD τ).loc b) ↦{fullShare} Pipeline.withArrays spec0 c (V0 m c) Fw (Proc.devRef .tc b)) : sProp 𝕄) = _
      rw [Pipeline.withArrays_of_ne spec0 c (V0 m c) Fw b fun w e => (Finset.mem_sdiff.mp hb).2 (Finset.mem_image.mpr ⟨w, Finset.mem_univ _, e⟩)]
  have hW : (StableHlo.held (c.tc : Thread nD τ) tailSet (Wx m c Fw) : sProp 𝕄)
      = iprop((((c.tc : Thread nD τ).loc main_v2_1) ↦{fullShare} Fw 3) ∗ Pipeline.unscopedRest spec0 c (V m c)) := by
    rw [held_tailSet, Wx_mask, hrest]
  have hkeep : StableHlo.after ([hostOps1] : List (List (HloOp τ sig (Elt F)))).flatten (Wx m c Fw) (Proc.devRef .tc main_v2_1) = Fw 3 := by
    rw [StableHlo.after_of_forall_not_mem _ _ fun op hop => ?_, Wx_mask]
    obtain ⟨ops, hops, hop'⟩ := List.mem_flatten.mp hop
    obtain rfl := List.mem_singleton.mp hops
    exact tail_keeps_mask op hop'
  have hW' : (StableHlo.held (c.tc : Thread nD τ) tailSet (StableHlo.after ([hostOps1] : List (List (HloOp τ sig (Elt F)))).flatten (Wx m c Fw)) : sProp 𝕄)
      = iprop((((c.tc : Thread nD τ).loc main_v2_1) ↦{fullShare} Fw 3)
          ∗ Pipeline.unscopedRest spec0 c (fun b => StableHlo.after ([hostOps1] : List (List (HloOp τ sig (Elt F)))).flatten (Wx m c Fw) (Proc.devRef .tc b))) := by
    rw [held_tailSet, hkeep]
  rw [arrays_open, ← List.append_nil (([hostOps1] : List (List (HloOp τ sig (Elt F)))).map StableHlo.seq)]
  iintro ⟨Hk, Hb, ⟨H0, H1, H2, H3⟩, HZ⟩
  ihave Hh := (Entails.of_eq hW.symm) $$ [H3 HZ]
  · isplitl [H3] <;> iassumption
  iapply (Pipeline.wp_seqs_then (fun q => (cfgs q).toPCfg (Val := Elt F)) defs₀ Variants.none c tailSet [] [hostOps1] tail_sub tail_fresh (Wx m c Fw)) $$ [Hb Hh]
  · isplitl [Hb] <;> iassumption
  iintro ⟨Hb, Hh⟩
  rw [Pipeline.chain_nil, wp_pure]
  imodintro
  iapply Hk
  ihave Hh' := (Entails.of_eq hW') $$ Hh
  icases Hh' with ⟨H3, HZ⟩
  isplitr [HZ]
  · isplitl [H0]; · iexact H0
    isplitl [H1]; · iexact H1
    isplitl [H2]; · iexact H2
    iexact H3
  iexact HZ

/-- The same at the contents the write-backs leave. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) defs₀) (Variants.lift Variants.none) (c.tc : Thread nD τ) none)
          Set.univ (Pipeline.chain [StableHlo.seq hostOps1]) Q' :=
  htail_any m c (fun w => (dats m 0 c).arrAt w cfg0.N) Q'
/-! ## The run -/

set_option backward.isDefEq.respectTransparency.types false in
/-- At the compiled mesh, for any float values, from any memory with zero counters: every weakly fair execution of
    @main terminates; at the end every window's array holds what the write-backs left of the tiles the body stored,
    and every other unscoped buffer what the four later lines computed from the region's exit (or, untouched by
    them, what the region found). -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_region_noSem_pf_tail (fun q => (cfgs q).toPCfg) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => Pipeline.unscopedRest spec0 c (Pipeline.afterTail₀ cfgs (dats m) 0 (V0 m) [hostOps1] c))
    (hX := fun c => by
      rw [Pipeline.unscopedRestP_none]
      iintro H; isplitr [H]; · iempintro
      iexact H)
    (hin := fun c => by iintro -; iempintro)
    (hout := fun c => by rw [scopedRest0_eq]; iintro -; isplitr <;> iempintro)
    (htail := htail m)
    (QY := fun c s => ∀ b ∈ Pipeline.restRefs sig spec0,
      s.mem ((c.tc : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b)
        (Pipeline.afterTail₀ cfgs (dats m) 0 (V0 m) [hostOps1] c) s')
      isplitl [HU] <;> iassumption)
    (hQ := fun s h c => ⟨(h c).1, (h c).2.2⟩)

/-- info: 'Cert.Kernel.Region.run_main' depends on axioms: [propext, Classical.choice, Quot.sound] -/
#guard_msgs in #print axioms run_main

end Cert.Kernel.Region

end
-- ==== Proof.WordRegionPost.lean ====
/-
  The run of @main read at each buffer the claims mention, at any float instance: the argument arrays end as launched
  (no line writes them and no window stages them), the two reshaped arrays end as the region found them, the distance
  array ends at what the write-backs left, and the one-bit result ends at the comparison against zero of what the
  write-backs left in the mask array.
-/
import proofs.«403998_j3487513444654_3_alg».proof.Proof.WordRegionRun

set_option maxRecDepth 16384

noncomputable section

namespace Cert.Kernel.Region

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Buffers the later lines leave alone -/

/-- A buffer that no later line writes and that is no window's array ends at what the region found there, whatever
    the arrays' final contents `Fw`. -/
theorem after_untouched (c : Dev nD) (Fw : (w : Fin cfg0.W) → Buf (Elt F) ((cfg0.win w).arr.view.loc (c.tc : Thread nD τ)))
    (b : Ref sig .tc) (hw : ∀ op ∈ (hostOps1 : List (HloOp τ sig (Elt F))), Proc.devRef .tc b ∉ op.writes)
    (ha : ∀ w, Pipeline.arrRef spec0 w ≠ b) :
    StableHlo.after ([hostOps1] : List (List (HloOp τ sig (Elt F)))).flatten (Wx m c Fw) (Proc.devRef .tc b) = V m c b := by
  rw [StableHlo.after_of_forall_not_mem (b := Proc.devRef .tc b) _ _ fun op hop => ?_]
  · exact Pipeline.withArrays_of_ne spec0 c (V0 m c) Fw b ha
  · obtain ⟨ops, hops, hop'⟩ := List.mem_flatten.mp hop
    obtain rfl := List.mem_singleton.mp hops
    exact hw op hop'

/-- The later lines write only the zero constant, its broadcast, the comparison's result and the converted result. -/
theorem tail_writes (b : Ref sig .tc) (h0 : b ≠ main_c) (h1 : b ≠ main_v3) (h2 : b ≠ main_v4) (h3 : b ≠ main_v5) :
    ∀ op ∈ (hostOps1 : List (HloOp τ sig (Elt F))), Proc.devRef .tc b ∉ op.writes := by
  intro op hop
  simp only [hostOps1, List.mem_cons, List.mem_nil_iff, _root_.or_false] at hop
  rcases hop with rfl | rfl | rfl | rfl <;>
    simp only [StableHlo.nullary_writes, StableHlo.unary_writes, StableHlo.binary_writes, Finset.mem_singleton]
  · exact StableHlo.devRef_ne_of_ne h0
  · exact StableHlo.devRef_ne_of_ne h1
  · exact StableHlo.devRef_ne_of_ne h2
  · exact StableHlo.devRef_ne_of_ne h3

/-- The one-bit result, whatever the arrays' final contents `Fw`: the mask array compared against the zero word,
    unequal meaning one. -/
theorem after_result (c : Dev nD) (Fw : (w : Fin cfg0.W) → Buf (Elt F) ((cfg0.win w).arr.view.loc (c.tc : Thread nD τ))) :
    StableHlo.after ([hostOps1] : List (List (HloOp τ sig (Elt F)))).flatten (Wx m c Fw) (Proc.devRef .tc main_v5)
      = (cmpi .ne (Fw 3 : (⟨S2x8192x8192, .i32⟩ : BufTy).Contents (Elt F))
          (broadcastInDim S2x8192x8192 ![] bcast_S_S2x8192x8192 (constantI S_ 32 0#32)) : (⟨S2x8192x8192, .i1⟩ : BufTy).Contents (Elt F)) := by
  show StableHlo.after hostOps1 (Wx m c Fw) (Proc.devRef .tc main_v5) = _
  after_results
  rw [Wx_mask]
  rfl

/-! ## The run, read -/

/-- Every weakly fair execution of @main terminates, and at the end: the one-bit result is the mask array's final
    contents compared against zero; the distance array holds what the write-backs left; the two reshaped arrays hold
    what the region found; the three argument arrays hold what they held at launch. -/
theorem run_read : θ_run defs (onTc (τ := τ) (main (F := F))) ⟨m, fun _ => 0, ρ⟩ (fun r => ∀ c : Dev nD,
      r.2.mem ((c.tc : Thread nD τ).loc main_v5)
        = (cmpi .ne ((dats m 0 c).arrAt 3 cfg0.N : (⟨S2x8192x8192, .i32⟩ : BufTy).Contents (Elt F))
            (broadcastInDim S2x8192x8192 ![] bcast_S_S2x8192x8192 (constantI S_ 32 0#32)) : (⟨S2x8192x8192, .i1⟩ : BufTy).Contents (Elt F))
      ∧ r.2.mem ((c.tc : Thread nD τ).loc main_v2_0) = (dats m 0 c).arrAt 2 cfg0.N
      ∧ r.2.mem ((c.tc : Thread nD τ).loc main_v0) = V m c main_v0
      ∧ r.2.mem ((c.tc : Thread nD τ).loc main_v1) = V m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v5 (Pipeline.mem_restRefs_of main_v5 (by decide) (by decide))).trans
        (after_result m c fun w => (dats m 0 c).arrAt w cfg0.N),
      (h c).1 2,
      ((h c).1 0).trans (((dats m 0 c).arrAt_in 0 rfl _).trans (A_eq m c 0)),
      ((h c).2 main_v1 (Pipeline.mem_restRefs_of main_v1 (by decide) (by decide))).trans
        (after_untouched m c _ main_v1 (tail_writes main_v1 (by decide) (by decide) (by decide) (by decide)) (by decide)),
      ((h c).2 main_arg0 (Pipeline.mem_restRefs_of main_arg0 (by decide) (by decide))).trans
        ((after_untouched m c _ main_arg0 (tail_writes main_arg0 (by decide) (by decide) (by decide) (by decide)) (by decide)).trans (V_main_arg0 m c)),
      ((h c).2 main_arg1 (Pipeline.mem_restRefs_of main_arg1 (by decide) (by decide))).trans
        ((after_untouched m c _ main_arg1 (tail_writes main_arg1 (by decide) (by decide) (by decide) (by decide)) (by decide)).trans (V_main_arg1 m c)),
      ((h c).2 main_arg2 (Pipeline.mem_restRefs_of main_arg2 (by decide) (by decide))).trans
        ((after_untouched m c _ main_arg2 (tail_writes main_arg2 (by decide) (by decide) (by decide) (by decide)) (by decide)).trans (V_main_arg2 m c))⟩)
    (run_main m ρ)

/-- THE FRAME: @main runs to its end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.2.2.2.1, (h c).2.2.2.2.2.1, (h c).2.2.2.2.2.2⟩) (run_read m ρ)

end Cert.Kernel.Region

end
-- ==== Proof.Region.lean ====
/-
  The kernel region run by hand, at any float instance.

  One pallas_call over a 2 × 8 × 8 grid. At grid point (b, i, j) the body reads two blocks of 1024 points of
  cloud b — rows 1024·i … of the points array for the output tile's rows, rows 1024·j … for its columns; BOTH
  blocks are windows onto ONE array, the reshaped points — and writes one 1024 × 1024 tile of each of two
  result arrays. Because two input windows share an array, the array's points-to is dealt between them in two
  half shares at the region's entry and the halves are read back together at its exit; nothing else in the launch
  differs from a kernel with distinct arrays. Before the region @main reshapes its two float arguments; after
  it, four host operations turn the 32-bit mask the kernel wrote into the one-bit result.
-/
import proofs.«403998_j3487513444654_3_alg».proof.Proof.Gen.KernelIdeal.Launch
import proofs.«403998_j3487513444654_3_alg».proof.Proof.Gen.KernelIdeal.Skeleton
import proofs.«403998_j3487513444654_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the two reshapes, the region, and the four later lines: it reduces to the region continued by those
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No line before the region writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (the row window is
    fetched only when the row tile changes: until then its block index has not moved), for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

/-- The whole point block, as the body's two loads read it, and the whole tile, as its two stores write it. -/
abbrev rPts : Rect S1x1024x3 := Rect.unit (s := S1x1024x3) ![0, 0, 0] S1x1024x3.size inb_S1x1024x3_S1x1024x3_0_0_0
abbrev rTile : Rect S1x1024x1024 := Rect.unit (s := S1x1024x1024) ![0, 0, 0] S1x1024x1024.size inb_S1x1024x1024_S1x1024x1024_0_0_0

/-- The distance tile after the body: its one store, of the distances of the row block `x0` and the column block `x1`. -/
def out0_2 (x0 x1 : Vec F S1x1024x3 .f32) : Vec F S1x1024x1024 .f32 :=
  View.canon [⟨rTile, k0_pay2 (View.ld x0 rPts) (View.ld x1 rPts)⟩]
/-- The mask tile after the body: its one store, of the widened comparison bits. -/
def out0_3 (x0 x1 : Vec F S1x1024x3 .f32) : Vec F S1x1024x1024 .i32 :=
  View.canon [⟨rTile, k0_pay3 (View.ld x0 rPts) (View.ld x1 rPts)⟩]

/-- Each store covers its buffer. -/
theorem cover_f32 (p0 : Vec F S1x1024x1024 .f32) (y : S1x1024x1024.Idx) :
    ∃ pc ∈ ([⟨rTile, p0⟩] : List (View.Piece (Elt F) S1x1024x1024 .f32)), y ∈ pc.1.set :=
  View.cover_of_tiled [⟨rTile, p0⟩] S1x1024x1024.size (by rfl) y
theorem cover_i32 (p0 : Vec F S1x1024x1024 .i32) (y : S1x1024x1024.Idx) :
    ∃ pc ∈ ([⟨rTile, p0⟩] : List (View.Piece (Elt F) S1x1024x1024 .i32)), y ∈ pc.1.set :=
  View.cover_of_tiled [⟨rTile, p0⟩] S1x1024x1024.size (by rfl) y

/-! ## The body's triple -/

set_option maxHeartbeats 1000000 in
/-- The body on whole staging memrefs — the two inputs' at read contents `x0`, `x1`, the two outputs' at anything —
    runs to the continuation holding the inputs' as they were and the outputs' at `out0_2`, `out0_3` of the inputs'. -/
theorem sound_kernel (c : Dev nD) (E : Set ℕ) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x1024x1024 .f32) (harg5 : arg5.IsWhole) (arg6 : Memref sig .tc .vmem S1x1024x1024 .i32) (harg6 : arg6.IsWhole)
    (x0 x1 : Vec F S1x1024x3 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1
              ∗ owns (c : Thread nD τ) arg5 fullShare (out0_2 x0 x1) ∗ owns (c : Thread nD τ) arg6 fullShare (out0_3 x0 x1)) -∗ K ⟨⟩))
      ⊢ wp frame (wpE (defs₀ (F := F)) Variants.none c none) E (cc0__knn_kernel i arg3 harg3 arg4 harg4 arg5 harg5 arg6 harg6) K := by
  simp only [cc0__knn_kernel_eq_skeleton]; unfold cc0__knn_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_f32 _)
  iexists _; isplitr
  swap; · iexact H3
  ipureintro
  exact View.read_writes_eq_canon _ _ _ (cover_i32 _)

/-! ## The pipeline's proof data -/

/-- The proof data on core `c`: the arrays as the region finds them; after the body at point `t` each input's buffer
    still at its block and each output's at what the stores left; no invariant of its own (it has no scratch and
    draws no random bits); nothing owed. The points array is read through two windows: the row window holds its
    left half share, the column window its right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.RegionRun.lean ====
/-
  The launch of the kernel region and the run of @main, at any float instance.
-/
import proofs.«403998_j3487513444654_3_alg».proof.Proof.Region

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at their shares -/

/-- The four windows' arrays one by one: the points array twice, at its left and right half shares, and the two
    result arrays outright. -/
theorem arrays_open (c : Dev nD) (Fw : (w : Fin cfg0.W) → Buf (Elt F) ((cfg0.win w).arr.view.loc (c.tc : Thread nD τ))) :
    ((dats m 0 c).arrays Fw : sProp 𝕄)
      = iprop((((c.tc : Thread nD τ).loc main_v0) ↦{fullShare.left} Fw 0) ∗ (((c.tc : Thread nD τ).loc main_v0) ↦{fullShare.right} Fw 1)
          ∗ (((c.tc : Thread nD τ).loc main_v2_0) ↦{fullShare} Fw 2) ∗ (((c.tc : Thread nD τ).loc main_v2_1) ↦{fullShare} Fw 3)) := by
  unfold Dat.arrays
  rw [bigSep_congr (fun w _ => show (((cfg0.win w).arr.view.loc (c.tc : Thread nD τ)) ↦[(cfg0.win w).arr.view.set]{(dats m 0 c).share w} Fw w : sProp 𝕄)
        = (((cfg0.win w).arr.view.loc (c.tc : Thread nD τ)) ↦{(dats m 0 c).share w} Fw w) from by rw [(arr_whole0 w).set_eq_univ]), bigSep_W0]
  rfl

/-- ENTRY: the three buffers behind the windows' arrays, whole, make the pipeline's arrays — the points array's full
    share split into its two halves, one per window onto it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_open]
  unfold Pipeline.arrBufs
  rw [bigSep_eq_bigSepL_of_eq [main_v0, main_v2_0, main_v2_1] (by decide) (by decide)]
  show iprop((((c.tc : Thread nD τ).loc main_v0) ↦{fullShare} V m c main_v0) ∗ (((c.tc : Thread nD τ).loc main_v2_0) ↦{fullShare} V m c main_v2_0)
      ∗ (((c.tc : Thread nD τ).loc main_v2_1) ↦{fullShare} V m c main_v2_1)) ⊢ _
  iintro ⟨H0, H2, H3⟩
  ihave Hs := (pointsTo_share (PosShare.mem_left_op_right fullShare)).1 $$ H0
  icases Hs with ⟨Hl, Hr⟩
  isplitl [Hl]; · iexact Hl
  isplitl [Hr]; · iexact Hr
  isplitl [H2]; · iexact H2
  iexact H3

/-! ## The lines after the region -/

/-- The buffers' contents when the region is left, for any final contents `Fw` of the windows' arrays: each window's
    array at `Fw`, every other buffer as the region found it. -/
abbrev Wx (c : Dev nD) (Fw : (w : Fin cfg0.W) → Buf (Elt F) ((cfg0.win w).arr.view.loc (c.tc : Thread nD τ))) : Valuation τ sig (Elt F) :=
  Pipeline.withArrays spec0 c (V0 m c) Fw

/-- The only window onto array `arrRef spec0 w₀` being `w₀` itself (`huniq`), the exit contents there are `Fw w₀`. -/
theorem Wx_at (c : Dev nD) (Fw : (w : Fin cfg0.W) → Buf (Elt F) ((cfg0.win w).arr.view.loc (c.tc : Thread nD τ))) (w₀ : Fin 4)
    (huniq : ∀ w' : Fin 4, Pipeline.arrRef spec0 w' = Pipeline.arrRef spec0 w₀ → w' = w₀) :
    Wx m c Fw (Proc.devRef .tc (Pipeline.arrRef spec0 w₀)) = Fw w₀ := by
  show Pipeline.withArrays spec0 c (V0 m c) Fw (Proc.devRef .tc (Pipeline.arrRef spec0 w₀)) = _
  unfold Pipeline.withArrays
  have h : ∃ w', Proc.devRef .tc (Pipeline.arrRef spec0 w') = Proc.devRef (τ := τ) .tc (Pipeline.arrRef spec0 w₀) := ⟨w₀, rfl⟩
  rw [dif_pos h]
  suffices ∀ (w' : Fin 4) (e : Proc.devRef .tc (Pipeline.arrRef spec0 w') = Proc.devRef (τ := τ) .tc (Pipeline.arrRef spec0 w₀)),
      cast (congrArg (fun b' : DevRef τ sig => b'.ty.Contents (Elt F)) e) (Fw w') = Fw w₀ from this _ h.choose_spec
  intro w' e
  obtain rfl : w' = w₀ := huniq w' (Proc.devRef_injective (τ := τ) _ e)
  rfl

theorem uniq_mask : ∀ w' : Fin 4, Pipeline.arrRef spec0 w' = Pipeline.arrRef spec0 3 → w' = 3 := by decide
theorem uniq_dist : ∀ w' : Fin 4, Pipeline.arrRef spec0 w' = Pipeline.arrRef spec0 2 → w' = 2 := by decide

theorem Wx_mask (c : Dev nD) (Fw : (w : Fin cfg0.W) → Buf (Elt F) ((cfg0.win w).arr.view.loc (c.tc : Thread nD τ))) :
    Wx m c Fw (Proc.devRef .tc main_v2_1) = Fw 3 := Wx_at m c Fw 3 uniq_mask
theorem Wx_dist (c : Dev nD) (Fw : (w : Fin cfg0.W) → Buf (Elt F) ((cfg0.win w).arr.view.loc (c.tc : Thread nD τ))) :
    Wx m c Fw (Proc.devRef .tc main_v2_0) = Fw 2 := Wx_at m c Fw 2 uniq_dist

/-- The buffers the later lines run within: the mask array, which they read, and the buffers that bypass the region,
    some of which they write. (Not the points array, whose two half shares stay with the pipeline's arrays.) -/
def tailSet : Finset (DevRef τ sig) :=
  (insert main_v2_1 (Pipeline.restRefs sig spec0)).map ⟨Proc.devRef (sig := sig) .tc, Proc.devRef_injective _⟩

theorem mask_not_rest : main_v2_1 ∉ Pipeline.restRefs sig spec0 := fun h =>
  (Finset.mem_sdiff.mp h).2 (Finset.mem_image.mpr ⟨3, Finset.mem_univ _, rfl⟩)

/-- Held at a valuation, that set is the mask array and the bypassing buffers at it. -/
theorem held_tailSet (c : Dev nD) (Wv : Valuation τ sig (Elt F)) :
    (StableHlo.held (c.tc : Thread nD τ) tailSet Wv : sProp 𝕄)
      = iprop((((c.tc : Thread nD τ).loc main_v2_1) ↦{fullShare} Wv (Proc.devRef .tc main_v2_1))
          ∗ Pipeline.unscopedRest spec0 c (fun b => Wv (Proc.devRef .tc b))) := by
  classical
  unfold StableHlo.held tailSet Pipeline.unscopedRest
  rw [bigSep_map, bigSep_insert mask_not_rest]
  rfl

theorem mem_tailSet_rest (b : Ref sig .tc) (hs : b.isScoped = false) (ha : ∀ w, (spec0 w).arr.view.ref ≠ b) :
    Proc.devRef (τ := τ) .tc b ∈ tailSet :=
  Finset.mem_map_of_mem _ (Finset.mem_insert_of_mem (Pipeline.mem_restRefs_of b hs ha))
theorem mem_tailSet_mask : Proc.devRef (τ := τ) .tc main_v2_1 ∈ tailSet :=
  Finset.mem_map_of_mem _ (Finset.mem_insert_self _ _)

/-- Each later line touches only buffers of that set: the zero constant, its broadcast, the comparison of the mask
    array against it, and the conversion of the comparison's result. -/
theorem tail_sub : ∀ ops ∈ ([hostOps1] : List (List (HloOp τ sig (Elt F)))), ∀ op ∈ ops, op.bufs ⊆ tailSet := by
  intro ops hops op hop
  obtain rfl := List.mem_singleton.mp hops
  simp only [hostOps1, List.mem_cons, List.mem_nil_iff, _root_.or_false] at hop
  rcases hop with rfl | rfl | rfl | rfl
  · rw [StableHlo.nullary_bufs]; intro b hb
    rw [Finset.mem_singleton] at hb; subst hb
    exact mem_tailSet_rest main_c (by decide) (by decide)
  · rw [StableHlo.unary_bufs]; intro b hb
    simp only [Finset.mem_insert, Finset.mem_singleton] at hb
    rcases hb with rfl | rfl
    · exact mem_tailSet_rest main_c (by decide) (by decide)
    · exact mem_tailSet_rest main_v3 (by decide) (by decide)
  · rw [StableHlo.binary_bufs]; intro b hb
    simp only [Finset.mem_insert, Finset.mem_singleton] at hb
    rcases hb with rfl | rfl | rfl
    · exact mem_tailSet_mask
    · exact mem_tailSet_rest main_v3 (by decide) (by decide)
    · exact mem_tailSet_rest main_v4 (by decide) (by decide)
  · rw [StableHlo.unary_bufs]; intro b hb
    simp only [Finset.mem_insert, Finset.mem_singleton] at hb
    rcases hb with rfl | rfl
    · exact mem_tailSet_rest main_v4 (by decide) (by decide)
    · exact mem_tailSet_rest main_v5 (by decide) (by decide)

theorem tail_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop

/-- No later line writes the mask array. -/
theorem tail_keeps_mask : ∀ op ∈ (hostOps1 : List (HloOp τ sig (Elt F))), Proc.devRef .tc main_v2_1 ∉ op.writes := by
  intro op hop
  simp only [hostOps1, List.mem_cons, List.mem_nil_iff, _root_.or_false] at hop
  rcases hop with rfl | rfl | rfl | rfl <;>
    simp only [StableHlo.nullary_writes, StableHlo.unary_writes, StableHlo.binary_writes, Finset.mem_singleton] <;>
    exact StableHlo.devRef_ne_of_ne (by decide)

/-- THE LINES AFTER THE REGION, for any final contents `Fw` of the arrays: from the region's exit — the boundary, the
    arrays at `Fw`, the bypassing buffers as the region found them — the four lines run within the mask array and the
    bypassing buffers, and hand back the arrays unchanged and the bypassing buffers at what the lines computed from the
    exit contents. -/
theorem htail_any (c : Dev nD) (Fw : (w : Fin cfg0.W) → Buf (Elt F) ((cfg0.win w).arr.view.loc (c.tc : Thread nD τ))) (Q' : PUnit → sProp 𝕄) :
    iprop((iprop((dats m 0 c).arrays Fw
              ∗ Pipeline.unscopedRest spec0 c (fun b => StableHlo.after ([hostOps1] : List (List (HloOp τ sig (Elt F)))).flatten (Wx m c Fw) (Proc.devRef .tc b))) -∗ Q' ⟨⟩)
        ∗ boundary (c.tc : Thread nD τ) ∗ (dats m 0 c).arrays Fw
        ∗ Pipeline.unscopedRest spec0 c (V m c))
      ⊢ wp frame (wpE (Pipeline.defs (fun q => (cfgs q).toPCfg (Val := Elt F)) defs₀) (Variants.lift Variants.none) (c.tc : Thread nD τ) none)
          Set.univ (Pipeline.chain (([hostOps1] : List (List (HloOp τ sig (Elt F)))).map StableHlo.seq)) Q' := by
  classical
  have hrest : (Pipeline.unscopedRest spec0 c (fun b => Wx m c Fw (Proc.devRef .tc b)) : sProp 𝕄) = Pipeline.unscopedRest spec0 c (V m c) := by
    unfold Pipeline.unscopedRest
    exact bigSep_congr fun b hb => by
      show ((((c.tc : Thread nD τ).loc b) ↦{fullShare} Pipeline.withArrays spec0 c (V0 m c) Fw (Proc.devRef .tc b)) : sProp 𝕄) = _
      rw [Pipeline.withArrays_of_ne spec0 c (V0 m c) Fw b fun w e => (Finset.mem_sdiff.mp hb).2 (Finset.mem_image.mpr ⟨w, Finset.mem_univ _, e⟩)]
  have hW : (StableHlo.held (c.tc : Thread nD τ) tailSet (Wx m c Fw) : sProp 𝕄)
      = iprop((((c.tc : Thread nD τ).loc main_v2_1) ↦{fullShare} Fw 3) ∗ Pipeline.unscopedRest spec0 c (V m c)) := by
    rw [held_tailSet, Wx_mask, hrest]
  have hkeep : StableHlo.after ([hostOps1] : List (List (HloOp τ sig (Elt F)))).flatten (Wx m c Fw) (Proc.devRef .tc main_v2_1) = Fw 3 := by
    rw [StableHlo.after_of_forall_not_mem _ _ fun op hop => ?_, Wx_mask]
    obtain ⟨ops, hops, hop'⟩ := List.mem_flatten.mp hop
    obtain rfl := List.mem_singleton.mp hops
    exact tail_keeps_mask op hop'
  have hW' : (StableHlo.held (c.tc : Thread nD τ) tailSet (StableHlo.after ([hostOps1] : List (List (HloOp τ sig (Elt F)))).flatten (Wx m c Fw)) : sProp 𝕄)
      = iprop((((c.tc : Thread nD τ).loc main_v2_1) ↦{fullShare} Fw 3)
          ∗ Pipeline.unscopedRest spec0 c (fun b => StableHlo.after ([hostOps1] : List (List (HloOp τ sig (Elt F)))).flatten (Wx m c Fw) (Proc.devRef .tc b))) := by
    rw [held_tailSet, hkeep]
  rw [arrays_open, ← List.append_nil (([hostOps1] : List (List (HloOp τ sig (Elt F)))).map StableHlo.seq)]
  iintro ⟨Hk, Hb, ⟨H0, H1, H2, H3⟩, HZ⟩
  ihave Hh := (Entails.of_eq hW.symm) $$ [H3 HZ]
  · isplitl [H3] <;> iassumption
  iapply (Pipeline.wp_seqs_then (fun q => (cfgs q).toPCfg (Val := Elt F)) defs₀ Variants.none c tailSet [] [hostOps1] tail_sub tail_fresh (Wx m c Fw)) $$ [Hb Hh]
  · isplitl [Hb] <;> iassumption
  iintro ⟨Hb, Hh⟩
  rw [Pipeline.chain_nil, wp_pure]
  imodintro
  iapply Hk
  ihave Hh' := (Entails.of_eq hW') $$ Hh
  icases Hh' with ⟨H3, HZ⟩
  isplitr [HZ]
  · isplitl [H0]; · iexact H0
    isplitl [H1]; · iexact H1
    isplitl [H2]; · iexact H2
    iexact H3
  iexact HZ

/-- The same at the contents the write-backs leave. -/
theorem htail (c : Dev nD) (Q' : PUnit → sProp 𝕄) :
    iprop((iprop((dats m 0 c).arrays ((dats m 0 c).arrAt · cfg0.N)
              ∗ Pipeline.unscopedRest spec0 c (Pipeline.afterTail₀ cfgs (dats m) 0 (V0 m) [hostOps1] c)) -∗ Q' ⟨⟩)
        ∗ boundary (c.tc : Thread nD τ) ∗ (dats m 0 c).arrays ((dats m 0 c).arrAt · cfg0.N)
        ∗ Pipeline.unscopedRest spec0 c (V m c))
      ⊢ wp frame (wpE (Pipeline.defs (fun q => (cfgs q).toPCfg (Val := Elt F)) defs₀) (Variants.lift Variants.none) (c.tc : Thread nD τ) none)
          Set.univ (Pipeline.chain [StableHlo.seq hostOps1]) Q' :=
  htail_any m c (fun w => (dats m 0 c).arrAt w cfg0.N) Q'
/-! ## The run -/

set_option backward.isDefEq.respectTransparency.types false in
/-- At the compiled mesh, for any float values, from any memory with zero counters: every weakly fair execution of
    @main terminates; at the end every window's array holds what the write-backs left of the tiles the body stored,
    and every other unscoped buffer what the four later lines computed from the region's exit (or, untouched by
    them, what the region found). -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_region_noSem_pf_tail (fun q => (cfgs q).toPCfg) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose)
    (hne := block_pos0) (harr := arr_whole0) (hstage := stage_whole0) (howed := fun _ _ => rfl)
    (hu₀ := BI.Entails.refl _)
    (V := V m) (hmain := hmain m Variants.none)
    (hsplit := hsplit m) (hpf := fun _ k => k.elim0)
    (X := fun _ => iprop(emp)) (Y := fun _ => iprop(emp))
    (Z := fun c => Pipeline.unscopedRest spec0 c (V m c))
    (Z' := fun c => Pipeline.unscopedRest spec0 c (Pipeline.afterTail₀ cfgs (dats m) 0 (V0 m) [hostOps1] c))
    (hX := fun c => by
      rw [Pipeline.unscopedRestP_none]
      iintro H; isplitr [H]; · iempintro
      iexact H)
    (hin := fun c => by iintro -; iempintro)
    (hout := fun c => by rw [scopedRest0_eq]; iintro -; isplitr <;> iempintro)
    (htail := htail m)
    (QY := fun c s => ∀ b ∈ Pipeline.restRefs sig spec0,
      s.mem ((c.tc : Thread nD τ).loc b) = Pipeline.afterTail₀ cfgs (dats m) 0 (V0 m) [hostOps1] c b)
    (hY := fun c s' => by
      iintro ⟨-, HU, HSI⟩
      unfold Pipeline.unscopedRest
      imodintro
      iapply (pointsTo_read_all (Pipeline.restRefs sig spec0) (fun b => (c.tc : Thread nD τ).loc b)
        (Pipeline.afterTail₀ cfgs (dats m) 0 (V0 m) [hostOps1] c) s')
      isplitl [HU] <;> iassumption)
    (hQ := fun s h c => ⟨(h c).1, (h c).2.2⟩)

/-- info: 'Cert.KernelIdeal.Region.run_main' depends on axioms: [propext, Classical.choice, Quot.sound] -/
#guard_msgs in #print axioms run_main

end Cert.KernelIdeal.Region

end
-- ==== Proof.RegionPost.lean ====
/-
  The run of @main read at each buffer the claims mention, at any float instance: the argument arrays end as launched
  (no line writes them and no window stages them), the two reshaped arrays end as the region found them, the distance
  array ends at what the write-backs left, and the one-bit result ends at the comparison against zero of what the
  write-backs left in the mask array.
-/
import proofs.«403998_j3487513444654_3_alg».proof.Proof.RegionRun

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Buffers the later lines leave alone -/

/-- A buffer that no later line writes and that is no window's array ends at what the region found there, whatever
    the arrays' final contents `Fw`. -/
theorem after_untouched (c : Dev nD) (Fw : (w : Fin cfg0.W) → Buf (Elt F) ((cfg0.win w).arr.view.loc (c.tc : Thread nD τ)))
    (b : Ref sig .tc) (hw : ∀ op ∈ (hostOps1 : List (HloOp τ sig (Elt F))), Proc.devRef .tc b ∉ op.writes)
    (ha : ∀ w, Pipeline.arrRef spec0 w ≠ b) :
    StableHlo.after ([hostOps1] : List (List (HloOp τ sig (Elt F)))).flatten (Wx m c Fw) (Proc.devRef .tc b) = V m c b := by
  rw [StableHlo.after_of_forall_not_mem (b := Proc.devRef .tc b) _ _ fun op hop => ?_]
  · exact Pipeline.withArrays_of_ne spec0 c (V0 m c) Fw b ha
  · obtain ⟨ops, hops, hop'⟩ := List.mem_flatten.mp hop
    obtain rfl := List.mem_singleton.mp hops
    exact hw op hop'

/-- The later lines write only the zero constant, its broadcast, the comparison's result and the converted result. -/
theorem tail_writes (b : Ref sig .tc) (h0 : b ≠ main_c) (h1 : b ≠ main_v3) (h2 : b ≠ main_v4) (h3 : b ≠ main_v5) :
    ∀ op ∈ (hostOps1 : List (HloOp τ sig (Elt F))), Proc.devRef .tc b ∉ op.writes := by
  intro op hop
  simp only [hostOps1, List.mem_cons, List.mem_nil_iff, _root_.or_false] at hop
  rcases hop with rfl | rfl | rfl | rfl <;>
    simp only [StableHlo.nullary_writes, StableHlo.unary_writes, StableHlo.binary_writes, Finset.mem_singleton]
  · exact StableHlo.devRef_ne_of_ne h0
  · exact StableHlo.devRef_ne_of_ne h1
  · exact StableHlo.devRef_ne_of_ne h2
  · exact StableHlo.devRef_ne_of_ne h3

/-- The one-bit result, whatever the arrays' final contents `Fw`: the mask array compared against the zero word,
    unequal meaning one. -/
theorem after_result (c : Dev nD) (Fw : (w : Fin cfg0.W) → Buf (Elt F) ((cfg0.win w).arr.view.loc (c.tc : Thread nD τ))) :
    StableHlo.after ([hostOps1] : List (List (HloOp τ sig (Elt F)))).flatten (Wx m c Fw) (Proc.devRef .tc main_v5)
      = (cmpi .ne (Fw 3 : (⟨S2x8192x8192, .i32⟩ : BufTy).Contents (Elt F))
          (broadcastInDim S2x8192x8192 ![] bcast_S_S2x8192x8192 (constantI S_ 32 0#32)) : (⟨S2x8192x8192, .i1⟩ : BufTy).Contents (Elt F)) := by
  show StableHlo.after hostOps1 (Wx m c Fw) (Proc.devRef .tc main_v5) = _
  after_results
  rw [Wx_mask]
  rfl

/-! ## The run, read -/

/-- Every weakly fair execution of @main terminates, and at the end: the one-bit result is the mask array's final
    contents compared against zero; the distance array holds what the write-backs left; the two reshaped arrays hold
    what the region found; the three argument arrays hold what they held at launch. -/
theorem run_read : θ_run defs (onTc (τ := τ) (main (F := F))) ⟨m, fun _ => 0, ρ⟩ (fun r => ∀ c : Dev nD,
      r.2.mem ((c.tc : Thread nD τ).loc main_v5)
        = (cmpi .ne ((dats m 0 c).arrAt 3 cfg0.N : (⟨S2x8192x8192, .i32⟩ : BufTy).Contents (Elt F))
            (broadcastInDim S2x8192x8192 ![] bcast_S_S2x8192x8192 (constantI S_ 32 0#32)) : (⟨S2x8192x8192, .i1⟩ : BufTy).Contents (Elt F))
      ∧ r.2.mem ((c.tc : Thread nD τ).loc main_v2_0) = (dats m 0 c).arrAt 2 cfg0.N
      ∧ r.2.mem ((c.tc : Thread nD τ).loc main_v0) = V m c main_v0
      ∧ r.2.mem ((c.tc : Thread nD τ).loc main_v1) = V m c main_v1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v5 (Pipeline.mem_restRefs_of main_v5 (by decide) (by decide))).trans
        (after_result m c fun w => (dats m 0 c).arrAt w cfg0.N),
      (h c).1 2,
      ((h c).1 0).trans (((dats m 0 c).arrAt_in 0 rfl _).trans (A_eq m c 0)),
      ((h c).2 main_v1 (Pipeline.mem_restRefs_of main_v1 (by decide) (by decide))).trans
        (after_untouched m c _ main_v1 (tail_writes main_v1 (by decide) (by decide) (by decide) (by decide)) (by decide)),
      ((h c).2 main_arg0 (Pipeline.mem_restRefs_of main_arg0 (by decide) (by decide))).trans
        ((after_untouched m c _ main_arg0 (tail_writes main_arg0 (by decide) (by decide) (by decide) (by decide)) (by decide)).trans (V_main_arg0 m c)),
      ((h c).2 main_arg1 (Pipeline.mem_restRefs_of main_arg1 (by decide) (by decide))).trans
        ((after_untouched m c _ main_arg1 (tail_writes main_arg1 (by decide) (by decide) (by decide) (by decide)) (by decide)).trans (V_main_arg1 m c)),
      ((h c).2 main_arg2 (Pipeline.mem_restRefs_of main_arg2 (by decide) (by decide))).trans
        ((after_untouched m c _ main_arg2 (tail_writes main_arg2 (by decide) (by decide) (by decide) (by decide)) (by decide)).trans (V_main_arg2 m c))⟩)
    (run_main m ρ)

/-- THE FRAME: @main runs to its end, faults nowhere, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).2.2.2.2.1, (h c).2.2.2.2.2.1, (h c).2.2.2.2.2.2⟩) (run_read m ρ)

end Cert.KernelIdeal.Region

end
-- ==== Proof.Spec.lean ====
/-
  The function both programs compute, over the extended reals.

  The points arrive as one array `P` of shape [2, 8192, 3]: two clouds of 8192 points in three coordinates.
  For cloud `b` and points `i`, `j` the squared distance is written the way both programs evaluate it,
  ‖P b i‖² + ‖P b j‖² − 2·⟨P b i, P b j⟩, each norm and the inner product a sum over the three coordinates,
  the factor two the float literal 2.0. The adjacency bit says whether that number is at most the float
  literal nearest 0.09 (the squared radius). No law of arithmetic beyond reading each operation at an index is
  used anywhere: the two programs add, subtract and multiply the same terms in the same order.
-/
import Idealize.ShloMosaic.PureOps.Ideal
import Idealize.ShloMosaic.PureOps.Ideal.Laws
import Idealize.ShloMosaic.Lib.ValueIdx

noncomputable section

namespace Cert.Knn

open Idealize.ShloMosaic Idealize.ShloMosaic.ValueIdx

/-- Two clouds of 8192 points with three coordinates each. -/
abbrev PtsShape : Shape := ⟨3, ![2, 8192, 3]⟩
/-- One number per cloud and ordered pair of its points. -/
abbrev PairShape : Shape := ⟨3, ![2, 8192, 8192]⟩

/-- The literal 2.0 and the squared radius, as the float words both programs carry. -/
abbrev two : EReal := Ideal.ofBits .f32 0x40000000#32
abbrev radius2 : EReal := Ideal.ofBits .f32 0x3DB851EC#32

/-- ‖P b i‖²: the sum over the three coordinates of the coordinate squared. -/
def sqNorm (P : PtsShape.Idx → EReal) (b : Fin 2) (i : Fin 8192) : EReal :=
  ∑ d : Fin 3, P (ix3 b i d) * P (ix3 b i d)

/-- ⟨P b i, P b j⟩: the sum over the three coordinates of the products. -/
def inner (P : PtsShape.Idx → EReal) (b : Fin 2) (i j : Fin 8192) : EReal :=
  ∑ d : Fin 3, P (ix3 b i d) * P (ix3 b j d)

/-- The squared distance of points `i` and `j` of cloud `b`. -/
def distAt (P : PtsShape.Idx → EReal) (b : Fin 2) (i j : Fin 8192) : EReal :=
  sqNorm P b i + sqNorm P b j - two * inner P b i j

/-- The squared distances as one array. -/
def dist (P : PtsShape.Idx → EReal) : PairShape.Idx → EReal := fun o => distAt P (o 0) (o 1) (o 2)

/-- Whether points `i` and `j` of cloud `b` lie within the radius: one bit. -/
def nearAt (P : PtsShape.Idx → EReal) (b : Fin 2) (i j : Fin 8192) : BitVec 1 :=
  Ideal.cmp .ole (distAt P b i j) radius2

/-- The adjacency bits as one array. -/
def near (P : PtsShape.Idx → EReal) : PairShape.Idx → BitVec 1 := fun o => nearAt P (o 0) (o 1) (o 2)

theorem dist_apply (P : PtsShape.Idx → EReal) (b : Fin 2) (i j : Fin 8192) : dist P (ix3 b i j) = distAt P b i j := rfl
theorem near_apply (P : PtsShape.Idx → EReal) (b : Fin 2) (i j : Fin 8192) : near P (ix3 b i j) = nearAt P b i j := rfl

end Cert.Knn

end
-- ==== Proof.Payload.lean ====
/-
  The kernel body's arithmetic read at an index, at the ideal instance: from the two point blocks it loads
  (1024 points of cloud `b` each, one for the rows and one for the columns of the output tile) the value it
  stores at row `p`, column `q` of the distance tile is ‖x p‖² + ‖y q‖² − 2·⟨x p, y q⟩, and the word it stores in
  the mask tile is the comparison bit of that number against the squared radius, widened to 32 bits.
-/
import proofs.«403998_j3487513444654_3_alg».proof.Proof.Gen.KernelIdeal.Skeleton
import proofs.«403998_j3487513444654_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The tile entry at row `p`, column `q`, from the row block `x` and the column block `y`. -/
def tileAt (x y : Vec Ideal S1x1024x3 .f32) (p q : Fin 1024) : EReal :=
  (∑ d : Fin 3, x (ix3 0 p d) * x (ix3 0 p d)) + (∑ d : Fin 3, y (ix3 0 q d) * y (ix3 0 q d))
    - Cert.Knn.two * ∑ d : Fin 3, x (ix3 0 p d) * y (ix3 0 q d)

/-! ## The layout operations of a sum that keeps its axis, read at coordinates -/

section Layout
variable {α : Type}

/-- An `[a]` array cast to the column `[a, 1]` reads, at `(i, u)`, the operand at `i`: the row-major position of
`(i, u)` in a one-column matrix is `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The operations of the body that are not pointwise, at the body's shapes -/

/-- A loaded block without its leading unit axis: row `p`, coordinate `d`. -/
theorem rows_apply (x : Vec Ideal S1x1024x3 .f32) (h : S1x1024x3.ShapeCasts S1024x3) (p : Fin 1024) (d : Fin 3) :
    shapeCast S1024x3 x h (ix2 p d) = x (ix3 0 p d) :=
  shapeCast_1ab_ab_apply x h p d

/-- The sum over the three coordinates of a `[1024, 3]` vector, at row `r`. -/
theorem laneSum_apply (w : FVec Ideal S1024x3 .f32) (h : S1024x3.Reduces [1] S1024) (hφ : FKind.Formats .f32)
    (hacc : (0x00000000#32 : BitVec 32) = 0x00000000#32) (r : Fin 1024) :
    multiReduction (F := Ideal) .add [1] S1024 w 0x00000000#32 h hφ hacc (ix1 r) = ∑ d : Fin 3, w (ix2 r d) := by
  refine (Ideal.multiReduction_add_single w 0x00000000#32 h hφ hacc (ix1 r)).trans ?_
  refine Finset.sum_congr rfl fun d _ => ?_
  exact congrArg w (funext fun c => Fin.ext (by match c with | ⟨0, _⟩ => rfl | ⟨1, _⟩ => rfl))

/-- A vector of 1024 numbers made a column and spread over the columns of the tile: entry `(p, q)` is number `p`. -/
theorem spreadCols_apply (v : FVec Ideal S1024 .f32) (h₁ : S1024.ShapeCasts S1024x1) (h₂ : S1024x1.Broadcasts S1024x1024)
    (p q : Fin 1024) : broadcastTo S1024x1024 (shapeCast S1024x1 v h₁) h₂ (ix2 p q) = v (ix1 p) :=
  (broadcastTo_a1_ab_apply (shapeCast S1024x1 v h₁) h₂ p q).trans (shapeCast_a_a1_apply v h₁ p 0)

/-- The same vector made a column, then a row, and spread over the rows of the tile: entry `(p, q)` is number `q`. -/
theorem spreadRows_apply (v : FVec Ideal S1024 .f32) (h₁ : S1024.ShapeCasts S1024x1) (h₂ : S1024x1.ShapeCasts S1x1024)
    (h₃ : S1x1024.Broadcasts S1024x1024) (p q : Fin 1024) :
    broadcastTo S1024x1024 (shapeCast S1x1024 (shapeCast S1024x1 v h₁) h₂) h₃ (ix2 p q) = v (ix1 q) :=
  ((broadcastTo_1b_ab_apply (shapeCast S1x1024 (shapeCast S1024x1 v h₁) h₂) h₃ p q).trans
    (shapeCast_a1_1a_apply (shapeCast S1024x1 v h₁) h₂ 0 q)).trans (shapeCast_a_a1_apply v h₁ q 0)

/-! ## The product of the two blocks: the operand indices of the contraction, axis by axis -/

theorem lhs_gram_0 (i : S1024x1024.Idx) (k : dot_S1024x3_S1024x3_S1024x1024_1_1_0_0_n_n.contr.Idx) :
    (dot_S1024x3_S1024x3_S1024x1024_1_1_0_0_n_n.lhsIdx i k 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem lhs_gram_1 (i : S1024x1024.Idx) (k : dot_S1024x3_S1024x3_S1024x1024_1_1_0_0_n_n.contr.Idx) :
    (dot_S1024x3_S1024x3_S1024x1024_1_1_0_0_n_n.lhsIdx i k 1).val = (k ⟨0, by decide⟩).val :=
  dot_S1024x3_S1024x3_S1024x1024_1_1_0_0_n_n.lhsIdx_val_of_single rfl i k
theorem rhs_gram_0 (i : S1024x1024.Idx) (k : dot_S1024x3_S1024x3_S1024x1024_1_1_0_0_n_n.contr.Idx) :
    (dot_S1024x3_S1024x3_S1024x1024_1_1_0_0_n_n.rhsIdx i k 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem rhs_gram_1 (i : S1024x1024.Idx) (k : dot_S1024x3_S1024x3_S1024x1024_1_1_0_0_n_n.contr.Idx) :
    (dot_S1024x3_S1024x3_S1024x1024_1_1_0_0_n_n.rhsIdx i k 1).val = (k ⟨0, by decide⟩).val :=
  dot_S1024x3_S1024x3_S1024x1024_1_1_0_0_n_n.rhsIdx_val_of_single rfl i k

/-- The product of two `[1024, 3]` blocks over their coordinate axis, accumulated into zero: at `(p, q)` the sum over
the three coordinates of row `p` of the first times row `q` of the second. -/
theorem gram_apply (a b : FVec Ideal S1024x3 .f32) (p q : Fin 1024) :
    matmul dot_S1024x3_S1024x3_S1024x1024_1_1_0_0_n_n (some .fp32) a b (constant (F := Ideal) S1024x1024 .f32 0x00000000#32) (ix2 p q)
      = ∑ d : Fin 3, a (ix2 p d) * b (ix2 q d) := by
  simp only [matmul]
  rw [Ideal.matmul_constant_zero_apply, ← Equiv.sum_comp (ValueIdx.contrEquiv1 dot_S1024x3_S1024x3_S1024x1024_1_1_0_0_n_n 3 rfl rfl).symm]
  refine Finset.sum_congr rfl fun k _ => ?_
  have hk := ValueIdx.contrEquiv1_symm_val dot_S1024x3_S1024x3_S1024x1024_1_1_0_0_n_n 3 rfl rfl k
  have el : dot_S1024x3_S1024x3_S1024x1024_1_1_0_0_n_n.lhsIdx (ix2 p q) ((ValueIdx.contrEquiv1 dot_S1024x3_S1024x3_S1024x1024_1_1_0_0_n_n 3 rfl rfl).symm k) = ix2 p k := funext fun c => Fin.ext (by
    match c with
    | ⟨0, _⟩ => exact lhs_gram_0 _ _
    | ⟨1, _⟩ => exact (lhs_gram_1 _ _).trans hk)
  have er : dot_S1024x3_S1024x3_S1024x1024_1_1_0_0_n_n.rhsIdx (ix2 p q) ((ValueIdx.contrEquiv1 dot_S1024x3_S1024x3_S1024x1024_1_1_0_0_n_n 3 rfl rfl).symm k) = ix2 q k := funext fun c => Fin.ext (by
    match c with
    | ⟨0, _⟩ => exact rhs_gram_0 _ _
    | ⟨1, _⟩ => exact (rhs_gram_1 _ _).trans hk)
  rw [el, er]

/-! ## The payloads at an index -/

/-- The subtraction `%17` at an index. -/
theorem pay1_apply (x y : Vec Ideal S1x1024x3 .f32) (p q : Fin 1024) :
    k0_pay1 (F := Ideal) x y (ix2 p q) = tileAt x y p q := by
  unfold k0_pay1 tileAt
  refine (subf_apply _ _ _).trans (congrArg₂ (· - ·) ((addf_apply _ _ _).trans (congrArg₂ (· + ·) ?_ ?_))
    ((mulf_apply _ _ _).trans (congrArg₂ (· * ·) rfl ?_)))
  · refine (spreadCols_apply _ _ _ p q).trans ((laneSum_apply _ _ _ _ p).trans ?_)
    exact Finset.sum_congr rfl fun d _ => congrArg₂ (· * ·) (rows_apply x _ p d) (rows_apply x _ p d)
  · refine (spreadRows_apply _ _ _ _ p q).trans ((laneSum_apply _ _ _ _ q).trans ?_)
    exact Finset.sum_congr rfl fun d _ => congrArg₂ (· * ·) (rows_apply y _ q d) (rows_apply y _ q d)
  · refine (gram_apply _ _ p q).trans ?_
    exact Finset.sum_congr rfl fun d _ => congrArg₂ (· * ·) (rows_apply x _ p d) (rows_apply y _ q d)

/-- What the first store writes: the same numbers under a leading unit axis. -/
theorem pay2_apply (x y : Vec Ideal S1x1024x3 .f32) (p q : Fin 1024) :
    k0_pay2 (F := Ideal) x y (ix3 0 p q) = tileAt x y p q := by
  unfold k0_pay2
  exact (shapeCast_ab_1ab_apply (k0_pay1 (F := Ideal) x y) _ 0 p q).trans (pay1_apply x y p q)

/-- What the second store writes: the comparison bit widened to a 32-bit word. -/
theorem pay3_apply (x y : Vec Ideal S1x1024x3 .f32) (p q : Fin 1024) :
    k0_pay3 (F := Ideal) x y (ix3 0 p q) = (Ideal.cmp .ole (tileAt x y p q) Cert.Knn.radius2).setWidth 32 := by
  unfold k0_pay3
  refine (shapeCast_ab_1ab_apply _ _ 0 p q).trans ((extui_apply _ _ _).trans (congrArg (fun b : BitVec 1 => b.setWidth 32) ?_))
  refine (cmpf_apply _ _ _ _).trans ((Ideal.cmpf_def _ _ _).trans ?_)
  exact congrArg (fun t => Ideal.cmp .ole t Cert.Knn.radius2) (pay1_apply x y p q)

end Cert.KernelIdeal.Payload

end
-- ==== Proof.Cover.lean ====
/-
  From tiles to arrays, at the ideal instance: the 128 tiles the grid's points write back cover each result array, and
  the tile of point (b, i, j) is the specification's values at rows 1024·i … and columns 1024·j … of cloud b, because
  the row block is rows 1024·i … of the points array and the column block rows 1024·j …. So after the region the
  distance array IS the specification's `dist` of the points as the region found them, and the mask array its
  adjacency bits widened to 32-bit words.
-/
import proofs.«403998_j3487513444654_3_alg».proof.Proof.Region
import proofs.«403998_j3487513444654_3_alg».proof.Proof.Payload
import proofs.«403998_j3487513444654_3_alg».proof.Proof.Spec
import Idealize.ShloMosaic.Lib.Pipeline.Value
import Idealize.ShloMosaic.Lib.ValueIdx

set_option maxRecDepth 16384

noncomputable section

namespace Cert.KernelIdeal.Cover

open Cert.KernelIdeal Cert.KernelIdeal.Gen Cert.KernelIdeal.Region
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## One entry of a tile against the specification -/

/-- If the row block's row `p` is row `r` of cloud `b` and the column block's row `q` is row `s` of the same cloud,
    the tile's entry `(p, q)` is the squared distance of points `r` and `s`: the same three sums, term by term. -/
theorem tile_eq (P : Cert.Knn.PtsShape.Idx → EReal) (x y : Vec Ideal S1x1024x3 .f32) (p q : Fin 1024) (b : Fin 2)
    (r s : Fin 8192) (hx : ∀ d : Fin 3, x (ix3 0 p d) = P (ix3 b r d)) (hy : ∀ d : Fin 3, y (ix3 0 q d) = P (ix3 b s d)) :
    Payload.tileAt x y p q = Cert.Knn.distAt P b r s := by
  unfold Payload.tileAt Cert.Knn.distAt Cert.Knn.sqNorm Cert.Knn.inner
  simp only [hx, hy]

/-! ## The index maps over the grid -/

theorem hz : (![0, 0, 0] : Fin 3 → Nat) = fun _ => 0 := funext fun a => by fin_cases a <;> rfl

/-- At every grid point the row block sits at the tile's cloud and row index, the column block at the tile's cloud and
    column index, both at coordinate block 0; the tile's indices stay in 2 × 8 × 8; and the mask's tile is the distance's. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 1 ∧ win0_2.index t (1 : Fin 3) ≤ 7 ∧ win0_2.index t (2 : Fin 3) ≤ 7
    ∧ win0_3.index t (0 : Fin 3) = win0_2.index t (0 : Fin 3)
    ∧ win0_3.index t (1 : Fin 3) = win0_2.index t (1 : Fin 3)
    ∧ win0_3.index t (2 : Fin 3) = win0_2.index t (2 : Fin 3) :=
  (by decide +kernel : ∀ t : Fin grid0.N, _)

/-- Every tile of the 2 × 8 × 8 arrangement is some grid point's. -/
theorem idx_onto : ∀ (b : Fin 2) (i j : Fin 8), ∃ t : Fin cfg0.N, win0_2.index t = ![b.val, i.val, j.val] :=
  (by decide +kernel : ∀ (b : Fin 2) (i j : Fin 8), ∃ t : Fin grid0.N, win0_2.index t = ![b.val, i.val, j.val])

/-! ## What a grid point writes back -/

/-- The entry `(p, q)` of the tile of point `t` is the squared distance the specification has at the tile's place in the array. -/
theorem tile_at_point (c : Dev nD) (t : Fin cfg0.N) (p q : Fin 1024) :
    Payload.tileAt (iblk m c 0 t) (iblk m c 1 t) p q
      = Cert.Knn.dist (V m c main_v0) (((cfg0.win 2).blk t).view.emb (ix3 (0 : Fin 1) p q)) := by
  obtain ⟨e00, e01, e02, e10, e11, e12, hB, hI, hJ, -, -, -⟩ := idx_facts t
  have hp : p.val < 1024 := p.isLt
  have hq : q.val < 1024 := q.isLt
  have ho : ((cfg0.win 2).blk t).view.emb (ix3 (0 : Fin 1) p q)
      = ix3 (⟨win0_2.index t (0 : Fin 3), by omega⟩ : Fin 2) (⟨win0_2.index t (1 : Fin 3) * 1024 + p.val, by omega⟩ : Fin 8192)
          (⟨win0_2.index t (2 : Fin 3) * 1024 + q.val, by omega⟩ : Fin 8192) := by
    funext a; apply Fin.ext
    match a with
    | ⟨0, _⟩ => show win0_2.index t (0 : Fin 3) * 1 + 1 * 0 = win0_2.index t (0 : Fin 3); omega
    | ⟨1, _⟩ => show win0_2.index t (1 : Fin 3) * 1024 + 1 * p.val = win0_2.index t (1 : Fin 3) * 1024 + p.val; omega
    | ⟨2, _⟩ => show win0_2.index t (2 : Fin 3) * 1024 + 1 * q.val = win0_2.index t (2 : Fin 3) * 1024 + q.val; omega
  refine ((tile_eq (V m c main_v0) _ _ p q _ _ _ (fun d => ?_) (fun d => ?_)).trans (Cert.Knn.dist_apply _ _ _ _).symm).trans
    (congrArg (Cert.Knn.dist (V m c main_v0)) ho.symm)
  · have hd : d.val < 3 := d.isLt
    show V m c main_v0 (((cfg0.win 0).blk t).view.emb (ix3 (0 : Fin 1) p d)) = V m c main_v0 _
    refine congrArg (V m c main_v0) (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * p.val = win0_2.index t (1 : Fin 3) * 1024 + p.val; omega
    | ⟨2, _⟩ => show win0_0.index t (2 : Fin 3) * 3 + 1 * d.val = d.val; omega
  · have hd : d.val < 3 := d.isLt
    show V m c main_v0 (((cfg0.win 1).blk t).view.emb (ix3 (0 : Fin 1) q d)) = V m c main_v0 _
    refine congrArg (V m c main_v0) (funext fun a => Fin.ext ?_)
    match a with
    | ⟨0, _⟩ => show win0_1.index t (0 : Fin 3) * 1 + 1 * 0 = win0_2.index t (0 : Fin 3); omega
    | ⟨1, _⟩ => show win0_1.index t (1 : Fin 3) * 1024 + 1 * q.val = win0_2.index t (2 : Fin 3) * 1024 + q.val; omega
    | ⟨2, _⟩ => show win0_1.index t (2 : Fin 3) * 3 + 1 * d.val = d.val; omega

/-- What point `t` writes back to the distance array is its block of the specification's distances. -/
theorem flushed_dist (c : Dev nD) (t : Fin cfg0.N) :
    (dats (F := Ideal) m 0 c).flushed 2 t = ((cfg0.win 2).blk t).view.read (Elt Ideal) (Cert.Knn.dist (V m c main_v0)) := by
  show (cfg0.win 2).cut (grid0.coords t) ((dats m 0 c).after 2 t) = _
  rw [after0_2]
  unfold out0_2
  rw [View.canon_unit_zero hz]
  simp only [View.ld_unit_zero (S := S1x1024x3) hz]
  funext j
  obtain ⟨u, p, q, rfl⟩ : ∃ (u : Fin 1) (p q : Fin 1024), j = ix3 u p q := ⟨j 0, j 1, j 2, eq_ix3 j⟩
  obtain rfl : u = 0 := Subsingleton.elim _ _
  show k0_pay2 (F := Ideal) (iblk m c 0 t) (iblk m c 1 t) (ix3 (0 : Fin 1) p q)
    = Cert.Knn.dist (V m c main_v0) (((cfg0.win 2).blk t).view.emb (ix3 (0 : Fin 1) p q))
  exact (Payload.pay2_apply _ _ p q).trans (tile_at_point m c t p q)

/-! ## The tiles cover the arrays -/

/-- An index of the distance array is in point `t`'s block iff each coordinate is in the block's range on its axis. -/
theorem mem_blk_dist (t : Fin cfg0.N) (i : S2x8192x8192.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v2_0).slice (win0_2.rect t)).set ↔ _
  rw [View.set_slice_whole, Rect.mem_set_unit]
  exact Iff.rfl

/-- The same for the mask array. -/
theorem mem_blk_mask (t : Fin cfg0.N) (i : S2x8192x8192.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v2_1).slice (win0_3.rect t)).set ↔ _
  rw [View.set_slice_whole, Rect.mem_set_unit]
  exact Iff.rfl

/-- Entry `(b, r, s)` of the distance array lies in the tile with cloud `b`, row index `r / 1024`, column index `s / 1024`. -/
theorem cover_dist (i : S2x8192x8192.Idx) :
    ∃ t : Fin cfg0.N, (cfg0.win 2).flush t = true ∧ i ∈ ((cfg0.win 2).blk t).view.set := by
  have h0 : (i 0).val < 2 := (i 0).isLt
  have h1 : (i 1).val < 8192 := (i 1).isLt
  have h2 : (i 2).val < 8192 := (i 2).isLt
  obtain ⟨t, ht⟩ := idx_onto ⟨(i 0).val, h0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk_dist]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The mask array is covered the same way: its tiles sit where the distance tiles do. -/
theorem cover_mask (i : S2x8192x8192.Idx) :
    ∃ t : Fin cfg0.N, (cfg0.win 3).flush t = true ∧ i ∈ ((cfg0.win 3).blk t).view.set := by
  have h0 : (i 0).val < 2 := (i 0).isLt
  have h1 : (i 1).val < 8192 := (i 1).isLt
  have h2 : (i 2).val < 8192 := (i 2).isLt
  obtain ⟨t, ht⟩ := idx_onto ⟨(i 0).val, h0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  obtain ⟨-, -, -, -, -, -, -, -, -, e30, e31, e32⟩ := idx_facts t
  refine ⟨t, flush0_3 t, ?_⟩
  rw [mem_blk_mask]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- What point `t` writes back to the mask array is its block of the specification's adjacency bits, widened. -/
theorem flushed_mask (c : Dev nD) (t : Fin cfg0.N) :
    (dats (F := Ideal) m 0 c).flushed 3 t
      = ((cfg0.win 3).blk t).view.read (Elt Ideal) (fun o => (Cert.Knn.near (V m c main_v0) o).setWidth 32) := by
  show (cfg0.win 3).cut (grid0.coords t) ((dats m 0 c).after 3 t) = _
  rw [after0_3]
  unfold out0_3
  rw [View.canon_unit_zero hz]
  simp only [View.ld_unit_zero (S := S1x1024x3) hz]
  funext j
  obtain ⟨u, p, q, rfl⟩ : ∃ (u : Fin 1) (p q : Fin 1024), j = ix3 u p q := ⟨j 0, j 1, j 2, eq_ix3 j⟩
  obtain rfl : u = 0 := Subsingleton.elim _ _
  show k0_pay3 (F := Ideal) (iblk m c 0 t) (iblk m c 1 t) (ix3 (0 : Fin 1) p q)
    = (Cert.Knn.near (V m c main_v0) (((cfg0.win 3).blk t).view.emb (ix3 (0 : Fin 1) p q))).setWidth 32
  have he : (((cfg0.win 3).blk t).view.emb (ix3 (0 : Fin 1) p q) : S2x8192x8192.Idx)
      = ((cfg0.win 2).blk t).view.emb (ix3 (0 : Fin 1) p q) := by
    obtain ⟨-, -, -, -, -, -, -, -, -, e30, e31, e32⟩ := idx_facts t
    funext a; apply Fin.ext
    match a with
    | ⟨0, _⟩ => show win0_3.index t (0 : Fin 3) * 1 + 1 * 0 = win0_2.index t (0 : Fin 3) * 1 + 1 * 0; omega
    | ⟨1, _⟩ => show win0_3.index t (1 : Fin 3) * 1024 + 1 * p.val = win0_2.index t (1 : Fin 3) * 1024 + 1 * p.val; omega
    | ⟨2, _⟩ => show win0_3.index t (2 : Fin 3) * 1024 + 1 * q.val = win0_2.index t (2 : Fin 3) * 1024 + 1 * q.val; omega
  refine ((Payload.pay3_apply _ _ p q).trans ?_).trans
    (congrArg (fun o : S2x8192x8192.Idx => (Cert.Knn.near (V m c main_v0) o).setWidth 32) he.symm)
  exact congrArg (fun z => (Ideal.cmp .ole z Cert.Knn.radius2).setWidth 32) (tile_at_point m c t p q)

/-- The distance array after the region. -/
theorem final_dist (c : Dev nD) :
    (dats (F := Ideal) m 0 c).arrAt 2 cfg0.N = Cert.Knn.dist (V m c main_v0) := by
  exact (dats (F := Ideal) m 0 c).arrAt_eq_of_cover 2 (Cert.Knn.dist (V m c main_v0)) (fun t _ => flushed_dist m c t) cover_dist

/-- The mask array after the region: the adjacency bit, as a 32-bit word. -/
theorem final_mask (c : Dev nD) :
    (dats (F := Ideal) m 0 c).arrAt 3 cfg0.N = fun o => (Cert.Knn.near (V m c main_v0) o).setWidth 32 := by
  exact (dats (F := Ideal) m 0 c).arrAt_eq_of_cover 3 (fun o => (Cert.Knn.near (V m c main_v0) o).setWidth 32)
    (fun t _ => flushed_mask m c t) cover_mask

end Cert.KernelIdeal.Cover

end
-- ==== Proof.KValue.lean ====
/-
  The kernel's results as the specification's functions, at the ideal instance.

  The region finds the points array at the reshape of the first argument, so its final distance array is the
  specification's `dist` of that reshape. The kernel stores each adjacency bit widened to a 32-bit word and @main
  then compares the word against zero: a bit widened is nonzero exactly when it is one, so the one-bit result is the
  specification's `near` itself.
-/
import proofs.«403998_j3487513444654_3_alg».proof.Proof.RegionPost
import proofs.«403998_j3487513444654_3_alg».proof.Proof.Cover
import proofs.«403998_j3487513444654_3_alg».proof.Proof.Spec

set_option maxRecDepth 16384

noncomputable section

namespace Cert.KernelIdeal.KValue

open Cert.KernelIdeal Cert.KernelIdeal.Gen Cert.KernelIdeal.Region
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- The points array as the region finds it: the first argument, reshaped. -/
theorem points_eq (c : Dev nD) :
    V m c main_v0 = shapeCast S2x8192x3 (m ((c : Thread nD τ).loc main_arg0)) shapeCasts_S16384x3_S2x8192x3 := by
  show StableHlo.after hostOps0 (fun b => m (c, b)) (Proc.devRef .tc main_v0) = _
  after_results
  rfl

/-- The features array as the region finds it: the second argument, reshaped. -/
theorem feats_eq (c : Dev nD) :
    V m c main_v1 = shapeCast S2x8192x64 (m ((c : Thread nD τ).loc main_arg1)) shapeCasts_S16384x64_S2x8192x64 := by
  show StableHlo.after hostOps0 (fun b => m (c, b)) (Proc.devRef .tc main_v1) = _
  after_results
  rfl

/-- A bit widened to a 32-bit word differs from the zero word exactly when the bit is one. -/
theorem widen_ne_zero : ∀ x : BitVec 1, IntOp.cmpi .ne (x.setWidth 32) 0#32 = x := by decide

/-- Comparing the widened adjacency bits against zero gives the adjacency bits back. -/
theorem mask_to_near (P : Cert.Knn.PtsShape.Idx → EReal) :
    (cmpi .ne ((fun o => (Cert.Knn.near P o).setWidth 32) : (⟨S2x8192x8192, .i32⟩ : BufTy).Contents (Elt Ideal))
        (broadcastInDim S2x8192x8192 ![] bcast_S_S2x8192x8192 (constantI S_ 32 0#32)) : (⟨S2x8192x8192, .i1⟩ : BufTy).Contents (Elt Ideal))
      = Cert.Knn.near P := by
  funext o
  exact widen_ne_zero _

/-- The reshaped arguments: what both programs call the points and the features. -/
abbrev pts (c : Dev nD) : (⟨S2x8192x3, .f32⟩ : BufTy).Contents (Elt Ideal) :=
  shapeCast S2x8192x3 (m ((c : Thread nD τ).loc main_arg0)) shapeCasts_S16384x3_S2x8192x3
abbrev feats (c : Dev nD) : (⟨S2x8192x64, .f32⟩ : BufTy).Contents (Elt Ideal) :=
  shapeCast S2x8192x64 (m ((c : Thread nD τ).loc main_arg1)) shapeCasts_S16384x64_S2x8192x64

/-- The idealized kernel's run with every result named: the adjacency bits and the squared distances of the reshaped
    points, the reshaped points and features themselves, and the arguments unchanged. -/
theorem run_values : θ_run defs (onTc (τ := τ) (main (F := Ideal))) ⟨m, fun _ => 0, ρ⟩ (fun r => ∀ c : Dev nD,
      r.2.mem ((c.tc : Thread nD τ).loc main_v5) = Cert.Knn.near (pts m c)
      ∧ r.2.mem ((c.tc : Thread nD τ).loc main_v2_0) = Cert.Knn.dist (pts m c)
      ∧ r.2.mem ((c.tc : Thread nD τ).loc main_v0) = pts m c
      ∧ r.2.mem ((c.tc : Thread nD τ).loc main_v1) = feats m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h5, h20, h0, h1, ha⟩ := h c
    refine ⟨?_, ?_, ?_, ?_, ha⟩
    · rw [h5, Cover.final_mask, mask_to_near, points_eq]
    · rw [h20, Cover.final_dist, points_eq]
    · rw [h0, points_eq]
    · rw [h1, feats_eq]) (run_read m ρ)

end Cert.KernelIdeal.KValue

end
-- ==== Proof.RefValue.lean ====
/-
  The reference program read at an index: its squared-distance stage and its adjacency stage are the
  specification's `dist` and `near` of the reshaped points.
-/
import proofs.«403998_j3487513444654_3_alg».proof.Proof.Gen.ReferenceIdeal.Read
import proofs.«403998_j3487513444654_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's `%3` (the sum of the squared coordinates) at cloud `b`, point `i` is ‖P b i‖²: the sum starts
    from the zero word, and each summand is the product of a coordinate with itself. -/
theorem sq_at (x0 : (⟨S16384x3, .f32⟩ : BufTy).Contents (Elt Ideal)) (b : Fin 2) (i : Fin 8192) :
    val_main_v3 (F := Ideal) x0 (ix2 b i) = Cert.Knn.sqNorm (val_main_v0 (F := Ideal) x0) b i := by
  rw [val_main_v3_apply, val_main_cst_apply, Ideal.ofBits_def, Ideal.ofBits_zero_f32, zero_add]
  unfold Cert.Knn.sqNorm
  refine Finset.sum_congr rfl fun k _ => ?_
  have e : idx_main_v3 (ix2 b i) k = ix3 b i k :=
    funext fun a => Fin.ext (by match a with | ⟨0, _⟩ => rfl | ⟨1, _⟩ => rfl | ⟨2, _⟩ => rfl)
  rw [val_main_v2_apply, Ideal.mulf_def, e]

/-- The reference's `%9` (the batched product of the points with themselves) at `(b, i, j)` is ⟨P b i, P b j⟩. -/
theorem inner_at (x0 : (⟨S16384x3, .f32⟩ : BufTy).Contents (Elt Ideal)) (b : Fin 2) (i j : Fin 8192) :
    val_main_v9 (F := Ideal) x0 (ix3 b i j) = Cert.Knn.inner (val_main_v0 (F := Ideal) x0) b i j := by
  rw [val_main_v9_apply]
  unfold Cert.Knn.inner
  refine Finset.sum_congr rfl fun k _ => ?_
  have el : lidx_main_v9 (ix3 b i j) k = ix3 b i k :=
    funext fun a => Fin.ext (by match a with | ⟨0, _⟩ => rfl | ⟨1, _⟩ => rfl | ⟨2, _⟩ => rfl)
  have er : ridx_main_v9 (ix3 b i j) k = ix3 b j k :=
    funext fun a => Fin.ext (by match a with | ⟨0, _⟩ => rfl | ⟨1, _⟩ => rfl | ⟨2, _⟩ => rfl)
  rw [el, er]

/-- The reference's `%12` at `(b, i, j)`: the row norm broadcast along `j`, plus the column norm broadcast
    along `i`, minus the literal two times the inner product. -/
theorem dist_at (x0 : (⟨S16384x3, .f32⟩ : BufTy).Contents (Elt Ideal)) (b : Fin 2) (i j : Fin 8192) :
    val_main_v12 (F := Ideal) x0 (ix3 b i j) = Cert.Knn.distAt (val_main_v0 (F := Ideal) x0) b i j := by
  have e6 : idx_main_v4 (idx_main_v6 (ix3 b i j)) = ix2 b i :=
    funext fun a => Fin.ext (by match a with | ⟨0, _⟩ => rfl | ⟨1, _⟩ => rfl)
  have e7 : idx_main_v5 (idx_main_v7 (ix3 b i j)) = ix2 b j :=
    funext fun a => Fin.ext (by match a with | ⟨0, _⟩ => rfl | ⟨1, _⟩ => rfl)
  rw [val_main_v12_apply, val_main_v8_apply, val_main_v6_apply, val_main_v4_apply, e6, sq_at,
    val_main_v7_apply, val_main_v5_apply, e7, sq_at,
    val_main_v11_apply, val_main_v10_apply, val_main_cst_0_apply, inner_at,
    Ideal.subf_def, Ideal.addf_def, Ideal.mulf_def, Ideal.ofBits_def]
  rfl

/-- The reference's `%12` (the subtraction) is the squared-distance array of the reshaped points. -/
theorem dist_eq (x0 : (⟨S16384x3, .f32⟩ : BufTy).Contents (Elt Ideal)) :
    val_main_v12 (F := Ideal) x0 = Cert.Knn.dist (val_main_v0 (F := Ideal) x0) := by
  funext o
  obtain ⟨b, i, j, rfl⟩ : ∃ (b : Fin 2) (i j : Fin 8192), o = ix3 b i j := ⟨o 0, o 1, o 2, eq_ix3 o⟩
  rw [dist_at, Cert.Knn.dist_apply]

/-- The reference's `%14` (the comparison) is the adjacency array of the reshaped points. -/
theorem near_eq (x0 : (⟨S16384x3, .f32⟩ : BufTy).Contents (Elt Ideal)) :
    val_main_v14 (F := Ideal) x0 = Cert.Knn.near (val_main_v0 (F := Ideal) x0) := by
  funext o
  obtain ⟨b, i, j, rfl⟩ : ∃ (b : Fin 2) (i j : Fin 8192), o = ix3 b i j := ⟨o 0, o 1, o 2, eq_ix3 o⟩
  rw [val_main_v14_apply, dist_at, val_main_v13_apply, val_main_cst_1_apply, Ideal.cmpf_def,
    Ideal.ofBits_def, Cert.Knn.near_apply]
  rfl

end Cert.ReferenceIdeal.RefValue

end
-- ==== Proof.lean ====
/-
  The kernel writes, for two clouds of 8192 points in three coordinates, every pairwise squared distance
  ‖x‖² + ‖y‖² − 2·⟨x, y⟩ and the bit saying whether it is at most the squared radius; the reference computes the same
  two arrays with whole-array operations. Over the extended reals the two agree entry by entry with no law of
  arithmetic needed: both add the two norms first, both multiply the inner product by the literal two, both subtract,
  both compare against the same literal — the kernel tile by tile (1024 × 1024 entries per grid point, 128 points
  covering each array), the reference at once. The kernel keeps its bits as 32-bit words and @main turns them back
  into bits by comparing against zero, which loses nothing.

  The three programs run to their ends and leave their arguments alone: the two kernel programs by the pipeline's
  launch theorem (two of the four windows look at ONE array, whose share is dealt between them), the reference by
  running its eighteen host operations in order. Nothing was rewritten between the word-level kernel and its
  idealization, so that conjunct is `True`. The finiteness precondition is never opened.
-/
import proofs.«403998_j3487513444654_3_alg».proof.Defs
import proofs.«403998_j3487513444654_3_alg».proof.Proof.Gen.Kernel
import proofs.«403998_j3487513444654_3_alg».proof.Proof.Gen.KernelIdeal
import proofs.«403998_j3487513444654_3_alg».proof.Proof.Gen.ReferenceIdeal
import proofs.«403998_j3487513444654_3_alg».proof.Proof.Gen.Pre_finite_inputs
import proofs.«403998_j3487513444654_3_alg».proof.Proof.WordRegionPost
import proofs.«403998_j3487513444654_3_alg».proof.Proof.RegionPost
import proofs.«403998_j3487513444654_3_alg».proof.Proof.KValue
import proofs.«403998_j3487513444654_3_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernel_ideal : Cert.frame_KernelIdeal := fun m ρ _ => Cert.KernelIdeal.Region.frame m ρ

/-- The reference has no kernel: its frame is its run with the results dropped. -/
theorem frame_reference : Cert.frame_ReferenceIdeal := fun m ρ _ =>
  (θ_run Cert.ReferenceIdeal.defs _ _).mono (fun _ h c => ⟨(h c).2.2.2.2.1, (h c).2.2.2.2.2.1, (h c).2.2.2.2.2.2⟩)
    (Cert.ReferenceIdeal.Value.run (F := Ideal) m ρ)

theorem preserves : Cert.preserves_Kernel_KernelIdeal := trivial

/-- From memories that agree on the arguments both idealized programs end with the adjacency bits, the squared
    distances, the reshaped points and the reshaped features of the first two arguments. -/
theorem algebraic : Cert.algebraic_KernelIdeal_ReferenceIdeal := by
  intro m ρ m' ρ' _ hagree
  refine ⟨fun c => Cert.Knn.near (Cert.KernelIdeal.KValue.pts m c), fun c => Cert.Knn.dist (Cert.KernelIdeal.KValue.pts m c),
    fun c => Cert.KernelIdeal.KValue.pts m c, fun c => Cert.KernelIdeal.KValue.feats m c,
    Cert.KernelIdeal.KValue.run_values m ρ, ?_⟩
  refine (θ_run Cert.ReferenceIdeal.defs _ _).mono (fun r h c => ?_) (Cert.ReferenceIdeal.Value.run (F := Ideal) m' ρ')
  obtain ⟨h14, h12, h0, h1, ha⟩ := h c
  refine ⟨?_, ?_, ?_, ?_, ha⟩
  · rw [h14, Cert.ReferenceIdeal.Read.val_main_v14_eq, Cert.ReferenceIdeal.RefValue.near_eq, (hagree c).1]
    rfl
  · rw [h12, Cert.ReferenceIdeal.Read.val_main_v12_eq, Cert.ReferenceIdeal.RefValue.dist_eq, (hagree c).1]
    rfl
  · rw [h0, (hagree c).1]
  · rw [h1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
